-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  One GraphSAGE layer's dense part, as a function of whole arrays, index by index.

  For aggregated neighbour features `A`, the layer's own input `H` (both [M, 128]), the two weight matrices
  `Wl`, `Wr` ([128, 128], used transposed) and a bias `b`, the layer's entry (p, q) is

      Σ_k A[p, k] · Wl[q, k]  +  b[q]  +  Σ_k H[p, k] · Wr[q, k],

  summed in this order on the extended reals; the first layer clamps the result below at zero. The two programs
  compute exactly this, one with host matrix products over the whole [100000, 128] arrays, the other block by block
  of 5000 rows on the matrix unit; on the extended reals a change of float format is the identity and a product
  into a zero accumulator is the plain sum, so both read the same entry at every index.
-/
import Idealize.ShloMosaic.PureOps.Ideal
import Idealize.ShloMosaic.PureOps.Ideal.Laws
import Idealize.ShloMosaic.Lib.ValueIdx
import Idealize.ShloMosaic.Lib.Pipeline.Value
import proofs.«118424_j56075093016767_1_alg».proof.Proof.LibRowDims

noncomputable section

open scoped BigOperators

namespace Cert.Sage

open Idealize.ShloMosaic Idealize.ShloMosaic.ValueIdx

/-- The node-feature arrays, [100000, 128]. -/
abbrev SN : Shape := ⟨2, ![100000, 128]⟩
/-- One block of 5000 rows. -/
abbrev ST : Shape := ⟨2, ![5000, 128]⟩
/-- A weight matrix. -/
abbrev SW : Shape := ⟨2, ![128, 128]⟩
/-- The bias as a row. -/
abbrev SR : Shape := ⟨2, ![1, 128]⟩
/-- The bias as a vector. -/
abbrev SV : Shape := ⟨1, ![128]⟩

/-- The zero both programs clamp at, as the extended real its word denotes. -/
abbrev zero : EReal := Ideal.ofBits .f32 0x00000000#32

/-- Entry (p, q) of a layer's dense part over arrays of `M` rows. -/
def linAt {M : Nat} (A H : (⟨2, ![M, 128]⟩ : Shape).Idx → EReal) (Wl Wr : SW.Idx → EReal) (b : Fin 128 → EReal)
    (p : Fin M) (q : Fin 128) : EReal :=
  (∑ k : Fin 128, A (ix2 p k) * Wl (ix2 q k)) + b q + ∑ k : Fin 128, H (ix2 p k) * Wr (ix2 q k)

/-- A layer's dense part over the whole arrays. -/
def lin (A H : SN.Idx → EReal) (Wl Wr : SW.Idx → EReal) (b : Fin 128 → EReal) : SN.Idx → EReal :=
  fun i => linAt A H Wl Wr b ⟨(i 0).val, idx2_lt0 i⟩ ⟨(i 1).val, idx2_lt1 i⟩

/-- The same clamped below at zero. -/
def linRelu (A H : SN.Idx → EReal) (Wl Wr : SW.Idx → EReal) (b : Fin 128 → EReal) : SN.Idx → EReal :=
  fun i => max (lin A H Wl Wr b i) zero

theorem lin_ix2 (A H : SN.Idx → EReal) (Wl Wr : SW.Idx → EReal) (b : Fin 128 → EReal) (p : Fin 100000) (q : Fin 128) :
    lin A H Wl Wr b (ix2 p q) = linAt A H Wl Wr b p q := rfl

/-- Two entries are equal when the rows of the features, the rows of the weights and the bias entry they read agree. -/
theorem linAt_congr {M M' : Nat} (A H : (⟨2, ![M, 128]⟩ : Shape).Idx → EReal) (A' H' : (⟨2, ![M', 128]⟩ : Shape).Idx → EReal)
    (Wl Wr Wl' Wr' : SW.Idx → EReal) (b b' : Fin 128 → EReal) (p : Fin M) (p' : Fin M') (q q' : Fin 128)
    (hA : ∀ k, A (ix2 p k) = A' (ix2 p' k)) (hH : ∀ k, H (ix2 p k) = H' (ix2 p' k))
    (hWl : ∀ k, Wl (ix2 q k) = Wl' (ix2 q' k)) (hWr : ∀ k, Wr (ix2 q k) = Wr' (ix2 q' k)) (hb : b q = b' q') :
    linAt A H Wl Wr b p q = linAt A' H' Wl' Wr' b' p' q' := by
  unfold linAt
  rw [hb]
  refine congrArg₂ (· + ·) (congrArg (· + b' q') ?_) ?_
  · exact Finset.sum_congr rfl fun k _ => by rw [hA k, hWl k]
  · exact Finset.sum_congr rfl fun k _ => by rw [hH k, hWr k]

/-- A transposed weight matrix read at (k, q) is the matrix at (q, k). -/
theorem transpose_w_apply (hT : SW.Transposes [1, 0] SW) (W : SW.Idx → EReal) (k q : Fin 128) :
    transpose SW [1, 0] W hT (ix2 k q) = W (ix2 q k) :=
  transpose_apply [1, 0] W hT (ix2 k q) (ix2 q k) (fun b => by
    match b with
    | ⟨0, _⟩ => rfl
    | ⟨1, _⟩ => rfl)

/-- The host's layer — two `dot_general`s against transposed weights, the bias broadcast along the rows — is `lin`. -/
theorem hostLin_eq (D : DotDims SN SW SN) (hD : D = DotDims.plain 100000 128 128)
    (hT : SW.Transposes [1, 0] SW) (hb1 : SV.BroadcastsInDim SR (![1] : Fin 1 → Fin SR.rank))
    (hb2 : SR.BroadcastsInDim SN (![0, 1] : Fin 2 → Fin SN.rank))
    (A H : FVec Ideal SN .f32) (Wl Wr : FVec Ideal SW .f32) (b : FVec Ideal SV .f32) :
    addf (addf (Host.dotGeneral D none A (transpose SW [1, 0] Wl hT))
          (broadcastInDim SN ![0, 1] hb2 (broadcastInDim SR ![1] hb1 b)))
        (Host.dotGeneral D none H (transpose SW [1, 0] Wr hT))
      = lin A H Wl Wr (fun q => b (ix1 q)) := by
  subst hD
  funext i
  obtain ⟨p, q, rfl⟩ : ∃ (p : Fin 100000) (q : Fin 128), i = ix2 p q := ⟨i 0, i 1, eq_ix2 i⟩
  rw [lin_ix2]
  unfold linAt
  rw [addf_apply, addf_apply]
  -- the bias: broadcast to a row, then along the rows
  have hb : broadcastInDim SN ![0, 1] hb2 (broadcastInDim SR ![1] hb1 b) (ix2 p q) = b (ix1 q) := by
    refine (broadcastInDim_apply ![0, 1] hb2 _ (ix2 p q) (ix2 (0 : Fin 1) q) (fun a => by
      match a with
      | ⟨0, _⟩ => rfl
      | ⟨1, _⟩ => rfl)).trans ?_
    exact broadcastInDim_apply ![1] hb1 b (ix2 (0 : Fin 1) q) (ix1 q) (fun a => by
      match a with
      | ⟨0, _⟩ => rfl)
  rw [hb]
  -- each product: the sum over the contracted coordinate, the weights read transposed
  have hdot : ∀ (X : FVec Ideal SN .f32) (W : FVec Ideal SW .f32),
      Host.dotGeneral (DotDims.plain 100000 128 128) none X (transpose SW [1, 0] W hT) (ix2 p q)
        = ∑ k : Fin 128, X (ix2 p k) * W (ix2 q k) := by
    intro X W
    refine (RowDims.dotGeneral_plain_apply none .single X (transpose SW [1, 0] W hT) p q).trans ?_
    exact Finset.sum_congr rfl fun k _ => congrArg (X (ix2 p k) * ·) (transpose_w_apply hT W k q)
  rw [hdot A Wl, hdot H Wr]

/-- One block's layer on the matrix unit — both operands narrowed, the weights transposed in the body, each product
    into a zero accumulator, the bias row broadcast along the block's rows — read at (p, q). -/
theorem blockLin_apply (D : DotDims ST SW ST) (hD : D = DotDims.plain 5000 128 128)
    (hT : SW.Transposes [1, 0] SW) (hB : SR.Broadcasts ST) (hbits : FTy.bf16.bits < FTy.f32.bits)
    (x0 x1 : FVec Ideal ST .f32) (x2 x3 : FVec Ideal SW .f32) (x4 : FVec Ideal SR .f32) (p : Fin 5000) (q : Fin 128) :
    addf (addf (matmul D none (truncf .bf16 x0 hbits) (transpose SW [1, 0] (truncf .bf16 x2 hbits) hT) (constant ST .f32 0x00000000#32))
          (broadcastTo ST x4 hB))
        (matmul D none (truncf .bf16 x1 hbits) (transpose SW [1, 0] (truncf .bf16 x3 hbits) hT) (constant ST .f32 0x00000000#32))
        (ix2 p q)
      = linAt x0 x1 x2 x3 (fun q => x4 (ix2 (0 : Fin 1) q)) p q := by
  subst hD
  unfold linAt
  rw [addf_apply, addf_apply]
  have hb : broadcastTo ST x4 hB (ix2 p q) = x4 (ix2 (0 : Fin 1) q) :=
    broadcastTo_apply x4 hB (ix2 p q) (ix2 (0 : Fin 1) q) (fun a => by
      match a with
      | ⟨0, _⟩ => rfl
      | ⟨1, _⟩ => rfl)
  rw [hb]
  have hmm : ∀ (X : FVec Ideal ST .f32) (W : FVec Ideal SW .f32),
      matmul (DotDims.plain 5000 128 128) none (truncf .bf16 X hbits) (transpose SW [1, 0] (truncf .bf16 W hbits) hT)
          (constant ST .f32 0x00000000#32) (ix2 p q)
        = ∑ k : Fin 128, X (ix2 p k) * W (ix2 q k) := by
    intro X W
    refine (RowDims.matmul_plain_zero_apply none (truncf .bf16 X hbits) (transpose SW [1, 0] (truncf .bf16 W hbits) hT) p q).trans ?_
    exact Finset.sum_congr rfl fun k _ =>
      congrArg ((truncf .bf16 X hbits : FVec Ideal ST .bf16) (ix2 p k) * ·) (transpose_w_apply hT (truncf .bf16 W hbits) k q)
  rw [hmm x0 x2, hmm x1 x3]

end Cert.Sage

end
-- ==== Proof.Region.lean ====
/-
  What each of the two regions leaves in its output array, as one function of the arrays the region finds.

  A region walks the 20 row blocks of 5000 rows. At block `t` its body reads rows 5000·t … 5000·t + 4999 of the
  aggregated features and of the layer's input, the two whole weight matrices and the bias row, and writes the layer's
  entries for those rows; the 20 blocks tile the [100000, 128] output, so the array ends holding the layer of the
  whole arrays, entry by entry (clamped at zero in the first region, as it is in the second).
-/
import proofs.«118424_j56075093016767_1_alg».proof.Proof.Gen.KernelIdeal.Frame
import proofs.«118424_j56075093016767_1_alg».proof.Proof.Spec
import Idealize.ShloMosaic.Lib.Pipeline.Value

set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## The bodies' payloads at an entry -/

/-- The first region's payload at (p, q): the layer's entry over the loaded blocks, clamped at zero. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = max (linAt x0 x1 x2 x3 (fun q => x4 (ix2 (0 : Fin 1) q)) p q) zero := by
  unfold k0_pay1
  simp only [shapeCast_self]
  exact congrArg (max · zero) (blockLin_apply _ rfl _ _ _ x0 x1 x2 x3 x4 p q)

/-- The second region's payload at (p, q): the layer's entry over the loaded blocks. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = linAt x0 x1 x2 x3 (fun q => x4 (ix2 (0 : Fin 1) q)) p q := by
  unfold k1_pay1
  simp only [shapeCast_self]
  exact blockLin_apply _ rfl _ _ _ x0 x1 x2 x3 x4 p q

/-! ## The first region -/

/-- The printed index maps over the grid: the row-blocked windows sit at block `t`, the weights and the bias at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the first region's output array ends holding: the clamped layer of the arrays the region finds. -/
abbrev G0 (c : Dev nD) : S100000x128.Idx → EReal :=
  linRelu (V c main_v22) (V c main_arg0) (V c main_arg2) (V c main_arg3) (fun q => V c main_v23 (ix2 (0 : Fin 1) q))

/-- What point `t` writes back is block `t` of that function. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts0 t
  funext j
  obtain ⟨p, q, rfl⟩ : ∃ (p : Fin 5000) (q : Fin 128), j = ix2 p q := ⟨j 0, j 1, eq_ix2 (n0 := 5000) (n1 := 128) j⟩
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  refine (pay0_apply (iblk0 V c 0 t) (iblk0 V c 1 t) (iblk0 V c 2 t) (iblk0 V c 3 t) (iblk0 V c 4 t) p q).trans ?_
  unfold G0 linRelu lin
  refine congrArg (max · zero) ?_
  refine linAt_congr _ _ _ _ _ _ _ _ _ _ _ _ _ _ ?_ ?_ ?_ ?_ ?_
  · intro k
    show V c main_v22 (((cfg0.win 0).blk t).view.emb (ix2 p k)) = _
    refine congrArg (V c main_v22) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg2 (((cfg0.win 2).blk t).view.emb (ix2 q k)) = _
    refine congrArg (V c main_arg2) (funext fun a => Fin.ext ?_)
    match a with
    | ⟨0, _⟩ => show win0_2.index t (0 : Fin 2) * 128 + 1 * q.val = win0_5.index t (1 : Fin 2) * 128 + 1 * q.val; omega
    | ⟨1, _⟩ => show win0_2.index t (1 : Fin 2) * 128 + 1 * k.val = k.val; omega
  · intro k
    show V c main_arg3 (((cfg0.win 3).blk t).view.emb (ix2 q k)) = _
    refine congrArg (V c main_arg3) (funext fun a => Fin.ext ?_)
    match a with
    | ⟨0, _⟩ => show win0_3.index t (0 : Fin 2) * 128 + 1 * q.val = win0_5.index t (1 : Fin 2) * 128 + 1 * q.val; omega
    | ⟨1, _⟩ => show win0_3.index t (1 : Fin 2) * 128 + 1 * k.val = k.val; omega
  · show V c main_v23 (((cfg0.win 4).blk t).view.emb (ix2 (0 : Fin 1) q)) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Row `r` of the output lies in the block of point `r / 5000`: the 20 blocks cover the array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  obtain ⟨-, -, -, -, -, -, -, -, -, -, e50, e51⟩ := idx_facts0 ⟨(i 0).val / 5000, ht⟩
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- The first region's output array after the region: the clamped layer of the arrays it found. -/
theorem final0 (c : Dev nD) : (dat0 V c).arrAt 5 cfg0.N = G0 V c :=
  (dat0 V c).arrAt_eq_of_cover 5 (G0 V c) (fun t _ => flushed0_eq V c t) cover0

/-! ## The second region -/

/-- The printed index maps over the grid: the row-blocked windows sit at block `t`, the weights and the bias at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the second region's output array ends holding: the layer of the arrays the region finds. -/
abbrev G1 (c : Dev nD) : S100000x128.Idx → EReal :=
  lin (V c main_v43) (V c main_v24) (V c main_arg5) (V c main_arg6) (fun q => V c main_v44 (ix2 (0 : Fin 1) q))

/-- What point `t` writes back is block `t` of that function. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts1 t
  funext j
  obtain ⟨p, q, rfl⟩ : ∃ (p : Fin 5000) (q : Fin 128), j = ix2 p q := ⟨j 0, j 1, eq_ix2 (n0 := 5000) (n1 := 128) j⟩
  show k1_pay1 (F := Ideal) (iblk1 V c 0 t) (iblk1 V c 1 t) (iblk1 V c 2 t) (iblk1 V c 3 t) (iblk1 V c 4 t) (ix2 p q)
    = G1 V c (((cfg1.win 5).blk t).view.emb (ix2 p q))
  refine (pay1_apply (iblk1 V c 0 t) (iblk1 V c 1 t) (iblk1 V c 2 t) (iblk1 V c 3 t) (iblk1 V c 4 t) p q).trans ?_
  unfold G1 lin
  refine linAt_congr _ _ _ _ _ _ _ _ _ _ _ _ _ _ ?_ ?_ ?_ ?_ ?_
  · intro k
    show V c main_v43 (((cfg1.win 0).blk t).view.emb (ix2 p k)) = _
    refine congrArg (V c main_v43) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v24 (((cfg1.win 1).blk t).view.emb (ix2 p k)) = _
    refine congrArg (V c main_v24) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · intro k
    show V c main_arg5 (((cfg1.win 2).blk t).view.emb (ix2 q k)) = _
    refine congrArg (V c main_arg5) (funext fun a => Fin.ext ?_)
    match a with
    | ⟨0, _⟩ => show win1_2.index t (0 : Fin 2) * 128 + 1 * q.val = win1_5.index t (1 : Fin 2) * 128 + 1 * q.val; omega
    | ⟨1, _⟩ => show win1_2.index t (1 : Fin 2) * 128 + 1 * k.val = k.val; omega
  · intro k
    show V c main_arg6 (((cfg1.win 3).blk t).view.emb (ix2 q k)) = _
    refine congrArg (V c main_arg6) (funext fun a => Fin.ext ?_)
    match a with
    | ⟨0, _⟩ => show win1_3.index t (0 : Fin 2) * 128 + 1 * q.val = win1_5.index t (1 : Fin 2) * 128 + 1 * q.val; omega
    | ⟨1, _⟩ => show win1_3.index t (1 : Fin 2) * 128 + 1 * k.val = k.val; omega
  · show V c main_v44 (((cfg1.win 4).blk t).view.emb (ix2 (0 : Fin 1) q)) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Row `r` of the output lies in the block of point `r / 5000`: the 20 blocks cover the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; omega
  obtain ⟨-, -, -, -, -, -, -, -, -, -, e50, e51⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- The second region's output array after the region: the layer of the arrays it found. -/
theorem final1 (c : Dev nD) : (dat1 V c).arrAt 5 cfg1.N = G1 V c :=
  (dat1 V c).arrAt_eq_of_cover 5 (G1 V c) (fun t _ => flushed1_eq V c t) cover1

end Cert.KernelIdeal.RegionValue

end
-- ==== Proof.Host.lean ====
/-
  The host side both programs share, named once, and the reference's result in those names.

  Both programs gather the source rows of a feature array along the edges, add them up at the destination rows, and
  divide by the in-degree (at least one): `aggSD h src dst`, the mean of the in-neighbours' rows of `h`, as the very
  host operations both programs print — it is never opened here. The reference then applies the dense layer with
  host matrix products (`layer`), clamps at zero after the first layer (`relu`), and repeats. On the extended reals
  `layer` is the entrywise function `lin` and the clamp is the entrywise maximum with zero, so the reference's
  result is `lin` of the second mean over the clamped `lin` of the first.
-/
import proofs.«118424_j56075093016767_1_alg».proof.Proof.Gen.ReferenceIdeal.Run
import proofs.«118424_j56075093016767_1_alg».proof.Proof.Spec

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.Sage

variable {F : FTy → Type} [FloatOps F]

/-- The edges' source nodes: row 0 of the edge list. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edges' destination nodes: row 1 of the edge list. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The mean of the in-neighbours' rows of `h`: the source rows gathered (a negative index wrapped once), added up at
    the destination rows, divided by the in-degree or by one. -/
def aggSD (h : (⟨S100000x128, .f32⟩ : BufTy).Contents (Elt F)) (src dst : (⟨S1600000, .i32⟩ : BufTy).Contents (Elt F)) :
    (⟨S100000x128, .f32⟩ : BufTy).Contents (Elt F) :=
  (Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))))))

/-- The dense layer as the host computes it. -/
def layer (a h : (⟨S100000x128, .f32⟩ : BufTy).Contents (Elt F)) (Wl Wr : (⟨S128x128, .f32⟩ : BufTy).Contents (Elt F))
    (b : (⟨S128, .f32⟩ : BufTy).Contents (Elt F)) : (⟨S100000x128, .f32⟩ : BufTy).Contents (Elt F) :=
  addf (addf (Host.dotGeneral dot_S100000x128_S128x128_S100000x128_1_0_0_1_n_n none a (transpose S128x128 [1, 0] Wl transposes_S128x128_S128x128_1_0))
      (broadcastInDim S100000x128 ![0, 1] bcast_S1x128_S100000x128_0_1 (broadcastInDim S1x128 ![1] bcast_S128_S1x128_1 b)))
    (Host.dotGeneral dot_S100000x128_S128x128_S100000x128_1_0_0_1_n_n none h (transpose S128x128 [1, 0] Wr transposes_S128x128_S128x128_1_0))

/-- The clamp at zero as the host computes it. -/
def relu (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

set_option maxRecDepth 16384 in
/-- The reference's result in those names: layer, clamp, layer, each over the mean of its input's in-neighbours. -/
theorem res_eq (m : (ℓ : Loc nD τ sig) → Buf (Elt F) ℓ) (c : Dev nD) :
    res_main_v58 m c
      = layer
          (aggSD (relu (layer (aggSD (m ((c.tc : Thread nD τ).loc main_arg0)) (srcOf (m ((c.tc : Thread nD τ).loc main_arg1))) (dstOf (m ((c.tc : Thread nD τ).loc main_arg1))))
                  (m ((c.tc : Thread nD τ).loc main_arg0)) (m ((c.tc : Thread nD τ).loc main_arg2)) (m ((c.tc : Thread nD τ).loc main_arg3)) (m ((c.tc : Thread nD τ).loc main_arg4))))
            (srcOf (m ((c.tc : Thread nD τ).loc main_arg1))) (dstOf (m ((c.tc : Thread nD τ).loc main_arg1))))
          (relu (layer (aggSD (m ((c.tc : Thread nD τ).loc main_arg0)) (srcOf (m ((c.tc : Thread nD τ).loc main_arg1))) (dstOf (m ((c.tc : Thread nD τ).loc main_arg1))))
                  (m ((c.tc : Thread nD τ).loc main_arg0)) (m ((c.tc : Thread nD τ).loc main_arg2)) (m ((c.tc : Thread nD τ).loc main_arg3)) (m ((c.tc : Thread nD τ).loc main_arg4))))
          (m ((c.tc : Thread nD τ).loc main_arg5)) (m ((c.tc : Thread nD τ).loc main_arg6)) (m ((c.tc : Thread nD τ).loc main_arg7)) := by
  unfold res_main_v58 layer relu aggSD srcOf dstOf
  rfl

/-- On the extended reals the host's layer is `lin`, entry by entry. -/
theorem layer_eq (a h : (⟨S100000x128, .f32⟩ : BufTy).Contents (Elt Ideal)) (Wl Wr : (⟨S128x128, .f32⟩ : BufTy).Contents (Elt Ideal))
    (b : (⟨S128, .f32⟩ : BufTy).Contents (Elt Ideal)) :
    layer (F := Ideal) a h Wl Wr b = lin a h Wl Wr (fun q => b (ix1 q)) :=
  hostLin_eq _ rfl _ _ _ a h Wl Wr b

/-- On the extended reals the host's clamp is the entrywise maximum with zero. -/
theorem relu_apply (x : (⟨S100000x128, .f32⟩ : BufTy).Contents (Elt Ideal)) (i : S100000x128.Idx) :
    relu (F := Ideal) x i = max (x i) zero := rfl

/-- The clamped host layer is `linRelu`. -/
theorem relu_layer_eq (a h : (⟨S100000x128, .f32⟩ : BufTy).Contents (Elt Ideal)) (Wl Wr : (⟨S128x128, .f32⟩ : BufTy).Contents (Elt Ideal))
    (b : (⟨S128, .f32⟩ : BufTy).Contents (Elt Ideal)) :
    relu (F := Ideal) (layer (F := Ideal) a h Wl Wr b) = linRelu a h Wl Wr (fun q => b (ix1 q)) := by
  funext i
  rw [relu_apply, layer_eq]
  rfl

/-- The first layer's output on the extended reals: the clamped layer of the input's neighbour means and the input. -/
def hid (x : (⟨S100000x128, .f32⟩ : BufTy).Contents (Elt Ideal)) (ei : (⟨S2x1600000, .i32⟩ : BufTy).Contents (Elt Ideal))
    (W1l W1r : (⟨S128x128, .f32⟩ : BufTy).Contents (Elt Ideal)) (b1 : (⟨S128, .f32⟩ : BufTy).Contents (Elt Ideal)) :
    (⟨S100000x128, .f32⟩ : BufTy).Contents (Elt Ideal) :=
  linRelu (aggSD (F := Ideal) x (srcOf ei) (dstOf ei)) x W1l W1r (fun q => b1 (ix1 q))

/-- The whole network on the extended reals: the second layer over the first layer's output and its neighbour means. -/
def spec (x : (⟨S100000x128, .f32⟩ : BufTy).Contents (Elt Ideal)) (ei : (⟨S2x1600000, .i32⟩ : BufTy).Contents (Elt Ideal))
    (W1l W1r : (⟨S128x128, .f32⟩ : BufTy).Contents (Elt Ideal)) (b1 : (⟨S128, .f32⟩ : BufTy).Contents (Elt Ideal))
    (W2l W2r : (⟨S128x128, .f32⟩ : BufTy).Contents (Elt Ideal)) (b2 : (⟨S128, .f32⟩ : BufTy).Contents (Elt Ideal)) :
    (⟨S100000x128, .f32⟩ : BufTy).Contents (Elt Ideal) :=
  lin (aggSD (F := Ideal) (hid x ei W1l W1r b1) (srcOf ei) (dstOf ei)) (hid x ei W1l W1r b1) W2l W2r (fun q => b2 (ix1 q))

/-- The reference's result is that function of its arguments. -/
theorem res_spec (m : (ℓ : Loc nD τ sig) → Buf (Elt Ideal) ℓ) (c : Dev nD) :
    res_main_v58 m c
      = spec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [res_eq, layer_eq, relu_layer_eq]
  rfl

end Cert.ReferenceIdeal.RefValue

end
-- ==== Proof.KernelHost.lean ====
/-
  The program's host stretches read back, and its result array as one function of the arguments.

  Before the first region the host computes the means of the input's in-neighbours (`aggSD` of the input and the edge
  list's two rows) and lays the first bias out as a row; the first region leaves the clamped layer of those in its
  output array; between the regions the host computes the means of THAT array's in-neighbours over the same edges and
  lays out the second bias; the second region leaves the layer of those. Substituting each boundary's contents into
  the next gives the result as the function `spec` of the arguments, the same function the reference computes.
-/
import proofs.«118424_j56075093016767_1_alg».proof.Proof.KernelRun
import proofs.«118424_j56075093016767_1_alg».proof.Proof.Region
import proofs.«118424_j56075093016767_1_alg».proof.Proof.Host
import Idealize.ShloMosaic.Lib.ValueLayout
import Idealize.ShloMosaic.Lib.StableHlo.Run

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.KernelIdeal.RegionValue Cert.Sage
open Cert.ReferenceIdeal.RefValue (aggSD srcOf dstOf hid spec)

variable (m : (ℓ : Loc nD τ sig) → Buf (Elt Ideal) ℓ) (ρ : Dev nD → PrngReg)

/-! ## Before the first region -/

set_option maxHeartbeats 4000000 in
theorem W1_src (c : Dev nD) : W1 m ρ c (Proc.devRef .tc main_v1) = srcOf (m ((c : Thread nD τ).loc main_arg1)) := by
  show StableHlo.after hostOps0 (W0 m ρ c) (Proc.devRef .tc main_v1) = _
  after_results_simp <;> rfl

set_option maxHeartbeats 4000000 in
theorem W1_dst (c : Dev nD) : W1 m ρ c (Proc.devRef .tc main_v3) = dstOf (m ((c : Thread nD τ).loc main_arg1)) := by
  show StableHlo.after hostOps0 (W0 m ρ c) (Proc.devRef .tc main_v3) = _
  after_results_simp <;> rfl

set_option maxHeartbeats 4000000 in
/-- The first region's first operand: the means of the input's in-neighbours. -/
theorem W1_agg (c : Dev nD) :
    W1 m ρ c (Proc.devRef .tc main_v22) = aggSD (F := Ideal) (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp <;> rfl

set_option maxHeartbeats 4000000 in
/-- The first bias laid out as a row. -/
theorem W1_bias (c : Dev nD) :
    W1 m ρ c (Proc.devRef .tc main_v23) = shapeCast S1x128 (m ((c : Thread nD τ).loc main_arg4)) shapeCasts_S128_S1x128 := by
  show StableHlo.after hostOps0 (W0 m ρ c) (Proc.devRef .tc main_v23) = _
  after_results_simp <;> rfl

set_option maxHeartbeats 4000000 in
theorem W1_arg (c : Dev nD) :
    W1 m ρ c (Proc.devRef .tc main_arg0) = (m ((c : Thread nD τ).loc main_arg0))
    ∧ W1 m ρ c (Proc.devRef .tc main_arg2) = (m ((c : Thread nD τ).loc main_arg2))
    ∧ W1 m ρ c (Proc.devRef .tc main_arg3) = (m ((c : Thread nD τ).loc main_arg3))
    ∧ W1 m ρ c (Proc.devRef .tc main_arg5) = (m ((c : Thread nD τ).loc main_arg5))
    ∧ W1 m ρ c (Proc.devRef .tc main_arg6) = (m ((c : Thread nD τ).loc main_arg6))
    ∧ W1 m ρ c (Proc.devRef .tc main_arg7) = (m ((c : Thread nD τ).loc main_arg7)) := by
  refine ⟨?_, ?_, ?_, ?_, ?_, ?_⟩
  · show StableHlo.after hostOps0 (W0 m ρ c) (Proc.devRef .tc main_arg0) = _
    after_results_simp <;> rfl
  · show StableHlo.after hostOps0 (W0 m ρ c) (Proc.devRef .tc main_arg2) = _
    after_results_simp <;> rfl
  · show StableHlo.after hostOps0 (W0 m ρ c) (Proc.devRef .tc main_arg3) = _
    after_results_simp <;> rfl
  · show StableHlo.after hostOps0 (W0 m ρ c) (Proc.devRef .tc main_arg5) = _
    after_results_simp <;> rfl
  · show StableHlo.after hostOps0 (W0 m ρ c) (Proc.devRef .tc main_arg6) = _
    after_results_simp <;> rfl
  · show StableHlo.after hostOps0 (W0 m ρ c) (Proc.devRef .tc main_arg7) = _
    after_results_simp <;> rfl

/-- A bias laid out as a row reads its entry `q` at (0, q). -/
theorem bias_row (b : (⟨S128, .f32⟩ : BufTy).Contents (Elt Ideal)) :
    (fun q : Fin 128 => shapeCast S1x128 b shapeCasts_S128_S1x128 (ix2 (0 : Fin 1) q)) = fun q => b (ix1 q) :=
  funext fun q => shapeCast_a_1a_apply b shapeCasts_S128_S1x128 0 q

/-! ## The first region's output -/

/-- After the first region its output array holds the first layer's output, as a function of the arguments. -/
theorem W2_hid (c : Dev nD) :
    W2 m ρ c (Proc.devRef .tc main_v24) = hid (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (final0 (V1 m ρ) c)).trans ?_
  unfold G0 hid
  show linRelu (W1 m ρ c (Proc.devRef .tc main_v22)) (W1 m ρ c (Proc.devRef .tc main_arg0)) (W1 m ρ c (Proc.devRef .tc main_arg2))
    (W1 m ρ c (Proc.devRef .tc main_arg3)) (fun q => W1 m ρ c (Proc.devRef .tc main_v23) (ix2 (0 : Fin 1) q)) = _
  rw [W1_agg, W1_bias, (W1_arg m ρ c).1, (W1_arg m ρ c).2.1, (W1_arg m ρ c).2.2.1, bias_row]

/-! ## Between the regions -/

set_option maxHeartbeats 4000000 in
/-- The second region's first operand: the means of the in-neighbours of what the first region left. -/
theorem W3_agg (c : Dev nD) :
    W3 m ρ c (Proc.devRef .tc main_v43)
      = aggSD (F := Ideal) (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp <;> rfl

set_option maxHeartbeats 4000000 in
theorem W3_keep (c : Dev nD) :
    W3 m ρ c (Proc.devRef .tc main_v24) = W2 m ρ c (Proc.devRef .tc main_v24)
    ∧ W3 m ρ c (Proc.devRef .tc main_arg5) = W2 m ρ c (Proc.devRef .tc main_arg5)
    ∧ W3 m ρ c (Proc.devRef .tc main_arg6) = W2 m ρ c (Proc.devRef .tc main_arg6) := by
  refine ⟨?_, ?_, ?_⟩
  · show StableHlo.after hostOps1 (W2 m ρ c) (Proc.devRef .tc main_v24) = _
    after_results_simp <;> rfl
  · show StableHlo.after hostOps1 (W2 m ρ c) (Proc.devRef .tc main_arg5) = _
    after_results_simp <;> rfl
  · show StableHlo.after hostOps1 (W2 m ρ c) (Proc.devRef .tc main_arg6) = _
    after_results_simp <;> rfl

set_option maxHeartbeats 4000000 in
/-- The second bias laid out as a row. -/
theorem W3_bias (c : Dev nD) :
    W3 m ρ c (Proc.devRef .tc main_v44) = shapeCast S1x128 (W2 m ρ c (Proc.devRef .tc main_arg7)) shapeCasts_S128_S1x128 := by
  show StableHlo.after hostOps1 (W2 m ρ c) (Proc.devRef .tc main_v44) = _
  after_results_simp <;> rfl

/-- The first region writes only its output array: the edge rows and the second layer's parameters pass through it. -/
theorem W2_keep (c : Dev nD) :
    W2 m ρ c (Proc.devRef .tc main_v1) = W1 m ρ c (Proc.devRef .tc main_v1)
    ∧ W2 m ρ c (Proc.devRef .tc main_v3) = W1 m ρ c (Proc.devRef .tc main_v3)
    ∧ W2 m ρ c (Proc.devRef .tc main_arg5) = W1 m ρ c (Proc.devRef .tc main_arg5)
    ∧ W2 m ρ c (Proc.devRef .tc main_arg6) = W1 m ρ c (Proc.devRef .tc main_arg6)
    ∧ W2 m ρ c (Proc.devRef .tc main_arg7) = W1 m ρ c (Proc.devRef .tc main_arg7) :=
  ⟨W2_of_ne m ρ c main_v1 (by decide), W2_of_ne m ρ c main_v3 (by decide), W2_of_ne m ρ c main_arg5 (by decide),
    W2_of_ne m ρ c main_arg6 (by decide), W2_of_ne m ρ c main_arg7 (by decide)⟩

/-! ## The result -/

/-- After the second region the result array holds `spec` of the arguments. -/
theorem result_eq (c : Dev nD) :
    W4 m ρ c (Proc.devRef .tc main_v45)
      = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (final1 (V3 m ρ) c)).trans ?_
  unfold G1 spec
  show lin (W3 m ρ c (Proc.devRef .tc main_v43)) (W3 m ρ c (Proc.devRef .tc main_v24)) (W3 m ρ c (Proc.devRef .tc main_arg5))
    (W3 m ρ c (Proc.devRef .tc main_arg6)) (fun q => W3 m ρ c (Proc.devRef .tc main_v44) (ix2 (0 : Fin 1) q)) = _
  obtain ⟨k24, k5, k6⟩ := W3_keep m ρ c
  obtain ⟨p1, p3, p5, p6, p7⟩ := W2_keep m ρ c
  obtain ⟨-, -, -, a5, a6, a7⟩ := W1_arg m ρ c
  rw [W3_agg, W3_bias, k24, k5, k6, p1, p3, p5, p6, p7, a5, a6, a7, W1_src, W1_dst, W2_hid, bias_row]

end Cert.KernelIdeal.HostValue

end
-- ==== Proof.lean ====
/-
  A two-layer GraphSAGE network with mean aggregation over 100000 nodes of 128 features and 1600000 edges, against
  its reference.

  Both programs compute, for each layer, the mean of every node's in-neighbour rows (a gather along the edges, a
  scatter-add at the destinations, a division by the in-degree or one) with the same host operations, and then the
  dense part  mean · Wlᵀ + b + h · Wrᵀ  (clamped at zero after the first layer). The reference does the dense part
  with two host matrix products over the whole arrays; the kernel does it in a region that walks 20 blocks of 5000
  rows, narrowing the operands, transposing the weights in the body and multiplying into a zero accumulator. On the
  extended reals a change of float format is the identity and a product into a zero accumulator is the plain sum over
  the contracted coordinate, in both programs added in the same order, so at every entry both dense parts are

      Σ_k mean[p, k] · Wl[q, k]  +  b[q]  +  Σ_k h[p, k] · Wr[q, k].

  The first region's output array therefore holds the same array as the reference's first clamped layer; the shared
  host operations between the regions are applied to equal arrays and are never opened; the second region's output
  array then holds the reference's result. No law of the extended reals beyond  0 + s = s  is used, so the inputs'
  finiteness is not needed for the values. The three frames are the generated ones (the reference's is its generated
  run with the result dropped), and the idealization rewrote no operation.
-/
import proofs.«118424_j56075093016767_1_alg».proof.Defs
import proofs.«118424_j56075093016767_1_alg».proof.Proof.Gen.Kernel
import proofs.«118424_j56075093016767_1_alg».proof.Proof.Gen.Kernel.Skeleton
import proofs.«118424_j56075093016767_1_alg».proof.Proof.Gen.Kernel.Launch
import proofs.«118424_j56075093016767_1_alg».proof.Proof.Gen.Kernel.Points
import proofs.«118424_j56075093016767_1_alg».proof.Proof.Gen.Kernel.Frame
import proofs.«118424_j56075093016767_1_alg».proof.Proof.Gen.KernelIdeal
import proofs.«118424_j56075093016767_1_alg».proof.Proof.Gen.KernelIdeal.Skeleton
import proofs.«118424_j56075093016767_1_alg».proof.Proof.Gen.KernelIdeal.Launch
import proofs.«118424_j56075093016767_1_alg».proof.Proof.Gen.KernelIdeal.Points
import proofs.«118424_j56075093016767_1_alg».proof.Proof.Gen.KernelIdeal.Frame
import proofs.«118424_j56075093016767_1_alg».proof.Proof.Gen.ReferenceIdeal
import proofs.«118424_j56075093016767_1_alg».proof.Proof.Gen.Pre_finite_inputs
import proofs.«118424_j56075093016767_1_alg».proof.Proof.Gen.ReferenceIdeal.Run
import proofs.«118424_j56075093016767_1_alg».proof.Proof.KernelHost
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the network's function `spec` of arguments that agree. -/
theorem algebraic : Cert.algebraic_KernelIdeal_ReferenceIdeal := by
  intro m ρ m' ρ' _ hagree
  refine ⟨fun c => Cert.ReferenceIdeal.RefValue.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostValue.result_eq m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.res_spec, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
